-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S128x10 .f32) (main_arg6 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg5
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x10 .f32) (main_arg6 : FVec F S10 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S1x10 : Shape := ⟨2, ![1, 10]⟩
abbrev S100000x10 : Shape := ⟨2, ![100000, 10]⟩
abbrev S10000x10 : Shape := ⟨2, ![10000, 10]⟩

abbrev nBuf : Space → Nat
  | .hbm => 109
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x1, .f32⟩
  | .hbm, ⟨99, _⟩ => ⟨S1700000x128, .f32⟩
  | .hbm, ⟨100, _⟩ => ⟨S1700000x128, .f32⟩
  | .hbm, ⟨101, _⟩ => ⟨S_, .f32⟩
  | .hbm, ⟨102, _⟩ => ⟨S100000x128, .f32⟩
  | .hbm, ⟨103, _⟩ => ⟨S1700000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S1x10, .f32⟩
  | .hbm, ⟨108, _⟩ => ⟨S100000x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x10, .f32⟩
  | .local _ .vmem, ⟨23, _⟩ => ⟨S1x10, .f32⟩
  | .local _ .vmem, ⟨24, _⟩ => ⟨S10000x10, .f32⟩
  | .local _ .vmem, ⟨25, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x10_S10000x10_1_0_0_1_n_n_wf : DotDims.WF S10000x128 S128x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x10.size a ≤ S100000x10.size a
  hwx4_3 : ∀ i : grid4.Coords, EltTy.bits .f32 = 32 ∨ (Rect.block (s := S100000x10) S10000x10.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S10000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1x10 : Shape := ⟨2, ![1, 10]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x10, .f32⟩
  | 6 => ⟨S10, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S_, .f32⟩
  | 88 => ⟨S100000, .f32⟩
  | 89 => ⟨S100000, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x10, .f32⟩
  | 4 => ⟨S1x10, .f32⟩
  | 5 => ⟨S100000x10, .f32⟩
  | 6 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.Spec.lean ====
/-
  The function both programs compute, over the reference program's vocabulary of shapes and dimension records.

  A graph on 100000 nodes is given by 1600000 directed edges (row 0 of the edge array the sources, row 1 the
  destinations); one self loop per node is appended, so there are 1700000 edges in all. With `deg` the number of
  edges arriving at a node (never zero once the loops are there, but the programs guard it all the same) and
  `dis = deg ^ (-1/2)`, one convolution layer sends a node feature matrix `x` to

      out[v, :] = Σ over edges (s → v) of dis[s] · dis[v] · (x · W)[s, :]   +   b,

  the sum taken by a scatter-add over the edge list. The model is two such layers with a rectifier between them, and a
  dense head `h · Wf + bf` on the second layer's output `h`; the results are `h` and the head's output.

  The edge bookkeeping (index lists, degrees, normalisation, the gather and the scatter-add) is the same chain of host
  operations in both programs: it is named here once and never opened.
-/
import proofs.«117090_j83013127897500_1_alg».proof.Proof.Gen.ReferenceIdeal

noncomputable section

namespace Cert.Spec

open Cert.ReferenceIdeal Cert.ReferenceIdeal.Gen Idealize.ShloMosaic Idealize.ShloMosaic.TcCoe

variable {F : FTy → Type} [FloatOps F]

/-- The contents of an array of the given shape and element type. -/
abbrev Arr (F : FTy → Type) [FloatOps F] (s : Shape) (e : EltTy) : Type := (⟨s, e⟩ : BufTy).Contents (Elt F)

/-- Edge sources: row 0 of the edge array, then every node once (its self loop). -/
def srcIdx (e : Arr F S2x1600000 .i32) : Arr F S1700000 .i32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Edge destinations: row 1 of the edge array, then every node once. -/
def dstIdx (e : Arr F S2x1600000 .i32) : Arr F S1700000 .i32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- In-degree: a one scattered to each edge's destination and added up. -/
def degree (d : Arr F S1700000 .i32) : Arr F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `deg ^ (-1/2)`, a degree that is not positive read as one. -/
def invSqrt (g : Arr F S100000 .f32) : Arr F S100000 .f32 :=
  Host.powf (select (cmpf .ogt g (broadcastInDim S100000 ![] bcast_S_S100000 (constant S_ .f32 0x00000000#32))) g (broadcastInDim S100000 ![] bcast_S_S100000 (id (constant S_ .f32 0x3F800000#32)))) (broadcastInDim S100000 ![] bcast_S_S100000 (constant S_ .f32 0xBF000000#32))

/-- An index list as the gather takes it: a negative index counted from the end. -/
def wrap (s : Arr F S1700000 .i32) : Arr F S1700000 .i32 :=
  select (cmpi .slt s (broadcastInDim S1700000 ![] bcast_S_S1700000 (constantI S_ 32 0#32))) (addi s (broadcastInDim S1700000 ![] bcast_S_S1700000 (constantI S_ 32 100000#32))) s

/-- The weight of each edge: `dis` at its source times `dis` at its destination. -/
def edgeNorm (dis : Arr F S100000 .f32) (s d : Arr F S1700000 .i32) : Arr F S1700000 .f32 :=
  mulf (Host.gather gather_S100000_S1700000x1_S1700000_n_0_n_n_0_1_1 dis (broadcastInDim S1700000x1 ![0] bcast_S1700000_S1700000x1_0 (wrap s))) (Host.gather gather_S100000_S1700000x1_S1700000_n_0_n_n_0_1_1 dis (broadcastInDim S1700000x1 ![0] bcast_S1700000_S1700000x1_0 (wrap d)))

/-- Neighbourhood aggregation: each edge carries its source's row, scaled by the edge's weight, to its destination,
    where the rows are added up. -/
def aggregate (dis : Arr F S100000 .f32) (s d : Arr F S1700000 .i32) (xw : Arr F S100000x128 .f32) : Arr F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 xw (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 (edgeNorm dis s d))))

/-- The aggregation with the edge bookkeeping read off the edge array. -/
def propagate (e : Arr F S2x1600000 .i32) (xw : Arr F S100000x128 .f32) : Arr F S100000x128 .f32 :=
  aggregate (invSqrt (degree (dstIdx e))) (srcIdx e) (dstIdx e) xw

/-- The product of a node feature matrix with a square weight matrix. -/
def dense (x : Arr F S100000x128 .f32) (W : Arr F S128x128 .f32) : Arr F S100000x128 .f32 :=
  Host.dotGeneral dot_S100000x128_S128x128_S100000x128_1_0_0_1_n_n none x W

/-- A bias row added to every node's row. -/
def addBias (a : Arr F S100000x128 .f32) (b : Arr F S128 .f32) : Arr F S100000x128 .f32 :=
  addf a (broadcastInDim S100000x128 ![0, 1] bcast_S1x128_S100000x128_0_1 (broadcastInDim S1x128 ![1] bcast_S128_S1x128_1 b))

/-- The rectifier: the maximum with zero, entry by entry. -/
def relu (a : Arr F S100000x128 .f32) : Arr F S100000x128 .f32 :=
  maximumf a (broadcastInDim S100000x128 ![] bcast_S_S100000x128 (constant S_ .f32 0x00000000#32))

/-- One convolution layer. -/
def layer (e : Arr F S2x1600000 .i32) (x : Arr F S100000x128 .f32) (W : Arr F S128x128 .f32) (b : Arr F S128 .f32) : Arr F S100000x128 .f32 :=
  addBias (propagate e (dense x W)) b

/-- The first result: two layers with a rectifier between them. -/
def hidden (x : Arr F S100000x128 .f32) (W1 : Arr F S128x128 .f32) (b1 : Arr F S128 .f32) (W2 : Arr F S128x128 .f32) (b2 : Arr F S128 .f32)
    (e : Arr F S2x1600000 .i32) : Arr F S100000x128 .f32 :=
  layer e (relu (layer e x W1 b1)) W2 b2

/-- The second result: the dense head on the first. -/
def head (h : Arr F S100000x128 .f32) (Wf : Arr F S128x10 .f32) (bf : Arr F S10 .f32) : Arr F S100000x10 .f32 :=
  addf (Host.dotGeneral dot_S100000x128_S128x10_S100000x10_1_0_0_1_n_n none h Wf) (broadcastInDim S100000x10 ![0, 1] bcast_S1x10_S100000x10_0_1 (broadcastInDim S1x10 ![1] bcast_S10_S1x10_1 bf))

end Cert.Spec

end
-- ==== Proof.LibDot.lean ====
/-
  A rows-by-columns matrix product read at one entry, for any sizes.

  With dimension numbers "contract the left operand's axis 1 with the right operand's axis 0, nothing batched" an
  m×k matrix times a k×n matrix has, over the extended reals, at the entry `(a, b)` the plain sum over the contracted
  coordinate `c` of `A[a, c] · B[c, b]` — whether it is formed on the host (`dot_general`) or on the matrix unit into
  a zero accumulator (`tpu.matmul`): no rounding and no order of summation is left at the ideal values. The dimension
  record is taken with ANY witness `w` of its well-formedness, so the lemmas apply to a printed program's own record
  (which is this record, by unfolding its definition) at whatever literal sizes.
-/
import Idealize.ShloMosaic.Lib.ValueIdx
import Idealize.ShloMosaic.PureOps.Ideal.Laws

noncomputable section

open scoped BigOperators

namespace Cert.LibDot

open Idealize.ShloMosaic Idealize.ShloMosaic.ValueIdx

variable {m k n : Nat} {φ₁ φ₂ : FTy}

/-- The dimension record of a rows-by-columns product of an m×k by a k×n matrix, over any witness of its
    well-formedness. -/
abbrev rowsByCols (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- At the output entry `(a, b)` and the contracted coordinate `c` the left operand is read at `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rowsByCols w).lhsIdx (ix2 a b) ((contrEquiv1 (rowsByCols w) k rfl rfl).symm c) = ix2 a c := by
  have hc := contrEquiv1_symm_val (rowsByCols w) k rfl rfl c
  funext ax; apply Fin.ext
  match ax with
  | ⟨0, _⟩ => simp [DotDims.lhsIdx]; rfl
  | ⟨1, _⟩ => simp [DotDims.lhsIdx]; exact hc

/-- … and the right operand at `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rowsByCols w).rhsIdx (ix2 a b) ((contrEquiv1 (rowsByCols w) k rfl rfl).symm c) = ix2 c b := by
  have hc := contrEquiv1_symm_val (rowsByCols w) k rfl rfl c
  funext ax; apply Fin.ext
  match ax with
  | ⟨0, _⟩ => simp [DotDims.rhsIdx]; exact hc
  | ⟨1, _⟩ => simp [DotDims.rhsIdx]; rfl

/-- The host's product at an entry: the sum over the contracted coordinate of the entries' products. -/
theorem hostDot_apply (w : DotDims.WF ⟨2, ![m, k]⟩ ⟨2, ![k, n]⟩ ⟨2, ![m, n]⟩ [1] [0] [0] [1] [] []) (prec : Option ContractPrecision)
    (A : FVec Ideal ⟨2, ![m, k]⟩ φ₁) (B : FVec Ideal ⟨2, ![k, n]⟩ φ₂) (a : Fin m) (b : Fin n) :
    Host.dotGeneral (rowsByCols w) prec A B (ix2 a b) = ∑ c : Fin k, A (ix2 a c) * B (ix2 c b) := by
  show FloatOps.dotGeneral _ prec _ A B (ix2 a b) = _
  rw [Ideal.dotGeneral_apply, ← Equiv.sum_comp (contrEquiv1 (rowsByCols w) k rfl rfl).symm]
  refine Finset.sum_congr rfl fun c _ => ?_
  rw [lhsIdx_eq, rhsIdx_eq]

/-- The matrix unit's product into a zero accumulator at an entry: the same sum. -/
theorem unitDot_apply (w : DotDims.WF ⟨2, ![m, k]⟩ ⟨2, ![k, n]⟩ ⟨2, ![m, n]⟩ [1] [0] [0] [1] [] []) (prec : Option ContractPrecision)
    (A : FVec Ideal ⟨2, ![m, k]⟩ φ₁) (B : FVec Ideal ⟨2, ![k, n]⟩ φ₂) (a : Fin m) (b : Fin n) :
    matmul (rowsByCols w) prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 (rowsByCols w) k rfl rfl).symm]
  refine Finset.sum_congr rfl fun c _ => ?_
  rw [lhsIdx_eq, rhsIdx_eq]

end Cert.LibDot

end
-- ==== Proof.Rows.lean ====
/-
  Bias rows and the rectifier, entry by entry.

  The kernels receive a bias vector already reshaped to one row (`[128] → [1, 128]`, `[10] → [1, 10]`) and add that row
  to every row of a block; the reference broadcasts the vector to a row and then to all rows. Here the two layers'
  bias addition and the head are restated over the ROW, the reshape of a vector to a row is shown to be the
  reference's broadcast of it, and each operation is read at one entry over the extended reals:
  `(a + row)[i, q] = a[i, q] + row[0, q]`, `relu(a)[j] = max(a[j], 0)`, and the head's entry is the product's entry
  plus the bias entry of its column.
-/
import proofs.«117090_j83013127897500_1_alg».proof.Proof.Spec
import proofs.«117090_j83013127897500_1_alg».proof.Proof.LibDot
import Idealize.ShloMosaic.Lib.Pipeline.Value
import Idealize.ShloMosaic.Lib.ValueLayout

noncomputable section

open scoped BigOperators

namespace Cert.Spec

open Cert.ReferenceIdeal Cert.ReferenceIdeal.Gen Idealize.ShloMosaic Idealize.ShloMosaic.TcCoe Idealize.ShloMosaic.ValueIdx

variable {F : FTy → Type} [FloatOps F]

/-- A row added to every node's row. -/
def addRow (a : Arr F S100000x128 .f32) (r : Arr F S1x128 .f32) : Arr F S100000x128 .f32 :=
  addf a (broadcastInDim S100000x128 ![0, 1] bcast_S1x128_S100000x128_0_1 r)

/-- The layer's bias addition is the addition of the bias vector laid out as a row. -/
theorem addBias_eq (a : Arr F S100000x128 .f32) (b : Arr F S128 .f32) :
    addBias a b = addRow a (broadcastInDim S1x128 ![1] bcast_S128_S1x128_1 b) := rfl

/-- The head with its bias given as a row. -/
def headRow (h : Arr F S100000x128 .f32) (Wf : Arr F S128x10 .f32) (r : Arr F S1x10 .f32) : Arr F S100000x10 .f32 :=
  addf (Host.dotGeneral dot_S100000x128_S128x10_S100000x10_1_0_0_1_n_n none h Wf) (broadcastInDim S100000x10 ![0, 1] bcast_S1x10_S100000x10_0_1 r)

theorem head_eq (h : Arr F S100000x128 .f32) (Wf : Arr F S128x10 .f32) (bf : Arr F S10 .f32) :
    head h Wf bf = headRow h Wf (broadcastInDim S1x10 ![1] bcast_S10_S1x10_1 bf) := rfl

/-- A vector reshaped to a one-row matrix is the vector broadcast along a new leading unit axis: both read, at
    `(0, i)`, the vector's entry `i`. -/
theorem row_of_vector {α : Type} {n : Nat} (b : (⟨1, ![n]⟩ : Shape).Idx → α) (hs : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ b hs = broadcastInDim ⟨2, ![1, n]⟩ ![1] hb b := by
  funext j
  obtain ⟨u, i, rfl⟩ : ∃ (u : Fin 1) (i : Fin n), j = ix2 u i := ⟨j 0, j 1, eq_ix2 j⟩
  rw [shapeCast_a_1a_apply]
  refine (broadcastInDim_apply (![1] : Fin 1 → Fin 2) hb b (ix2 u i) (ix1 i) fun a => ?_).symm
  match a with
  | ⟨0, _⟩ =>
    show i.val = if n = 1 then 0 else i.val
    split
    · have := i.isLt; omega
    · rfl

/-- The row addition at an entry. -/
theorem addRow_apply (a : Arr Ideal S100000x128 .f32) (r : Arr Ideal S1x128 .f32) (i : Fin 100000) (q : Fin 128) :
    addRow a r (ix2 i q) = a (ix2 i q) + r (ix2 (0 : Fin 1) q) := by
  unfold addRow
  rw [addf_apply]
  refine congrArg (a (ix2 i q) + ·) ?_
  refine broadcastInDim_apply (![0, 1] : Fin 2 → Fin 2) bcast_S1x128_S100000x128_0_1 r (ix2 i q) (ix2 (0 : Fin 1) q) fun ax => ?_
  match ax with
  | ⟨0, _⟩ => rfl
  | ⟨1, _⟩ => rfl

/-- The rectifier at an entry. -/
theorem relu_apply (a : Arr Ideal S100000x128 .f32) (j : S100000x128.Idx) : relu a j = max (a j) 0 := by
  unfold relu
  rw [maximumf_apply]
  refine congrArg (max (a j)) ?_
  refine (broadcastInDim_apply (![] : Fin 0 → Fin 2) bcast_S_S100000x128 (constant (F := Ideal) S_ .f32 0x00000000#32) j ix0 fun ax => ax.elim0).trans ?_
  exact Ideal.ofBits_zero_f32

/-- The first layer's closing step over the bias row: add the row, then rectify. -/
def biasReluRow (a : Arr F S100000x128 .f32) (r : Arr F S1x128 .f32) : Arr F S100000x128 .f32 := relu (addRow a r)

/-- The second layer's closing step over the bias row: add the row. -/
def biasOnlyRow (a : Arr F S100000x128 .f32) (r : Arr F S1x128 .f32) : Arr F S100000x128 .f32 := addRow a r

theorem biasReluRow_apply (a : Arr Ideal S100000x128 .f32) (r : Arr Ideal S1x128 .f32) (i : Fin 100000) (q : Fin 128) :
    biasReluRow a r (ix2 i q) = max (a (ix2 i q) + r (ix2 (0 : Fin 1) q)) 0 := by
  unfold biasReluRow
  rw [relu_apply, addRow_apply]

theorem biasOnlyRow_apply (a : Arr Ideal S100000x128 .f32) (r : Arr Ideal S1x128 .f32) (i : Fin 100000) (q : Fin 128) :
    biasOnlyRow a r (ix2 i q) = a (ix2 i q) + r (ix2 (0 : Fin 1) q) :=
  addRow_apply a r i q

/-- The head at an entry: row `i` of `h` against column `q` of the weights, plus the bias of column `q`. -/
theorem headRow_apply (h : Arr Ideal S100000x128 .f32) (Wf : Arr Ideal S128x10 .f32) (r : Arr Ideal S1x10 .f32) (i : Fin 100000) (q : Fin 10) :
    headRow h Wf r (ix2 i q) = (∑ c : Fin 128, h (ix2 i c) * Wf (ix2 c q)) + r (ix2 (0 : Fin 1) q) := by
  unfold headRow
  rw [addf_apply]
  congr 1
  · exact LibDot.hostDot_apply (m := 100000) (k := 128) (n := 10) _ none h Wf i q
  · refine broadcastInDim_apply (![0, 1] : Fin 2 → Fin 2) bcast_S1x10_S100000x10_0_1 r (ix2 i q) (ix2 (0 : Fin 1) q) fun ax => ?_
    match ax with
    | ⟨0, _⟩ => rfl
    | ⟨1, _⟩ => rfl

/-- The square product at an entry. -/
theorem dense_apply (x : Arr Ideal S100000x128 .f32) (W : Arr Ideal S128x128 .f32) (r : Fin 100000) (q : Fin 128) :
    dense x W (ix2 r q) = ∑ c : Fin 128, x (ix2 r c) * W (ix2 c q) := by
  unfold dense
  exact LibDot.hostDot_apply (m := 100000) (k := 128) (n := 128) _ none x W r q

end Cert.Spec

end
-- ==== Proof.Payloads.lean ====
/-
  What each kernel body stores, read at one entry of its block, over the extended reals.

  The five bodies are: a block of 10000 rows times a square weight matrix (twice), the addition of a bias row to a
  block followed by the rectifier, the same without the rectifier, and a block times the head's 128×10 weights plus
  the head's bias row. Narrowing to bf16 before a product is the identity here, a shape cast to the same shape is
  the identity, and the one-row bias broadcast over the block reads its row at the entry's column.
-/
import proofs.«117090_j83013127897500_1_alg».proof.Proof.Gen.KernelIdeal.Skeleton
import proofs.«117090_j83013127897500_1_alg».proof.Proof.LibDot
import Idealize.ShloMosaic.Lib.Pipeline.Value
import Idealize.ShloMosaic.Lib.ValueLayout

noncomputable section

open scoped BigOperators

namespace Cert.KernelIdeal.Payloads

open Cert.KernelIdeal Cert.KernelIdeal.Gen Idealize.ShloMosaic Idealize.ShloMosaic.TcCoe Idealize.ShloMosaic.ValueIdx

/-- The first product: row `p` of the block against column `q` of the weights. -/
theorem sq0 (xb : Vec Ideal S10000x128 .f32) (W : Vec Ideal S128x128 .f32) (p : Fin 10000) (q : Fin 128) :
    k0_pay1 xb W (ix2 p q) = ∑ c : Fin 128, xb (ix2 p c) * W (ix2 c q) := by
  unfold k0_pay1
  refine (LibDot.unitDot_apply (m := 10000) (k := 128) (n := 128) _ none (truncf .bf16 xb bitsLt_bf16_f32) (truncf .bf16 W bitsLt_bf16_f32) p q).trans ?_
  rfl

/-- The second product: the same, its block passing through a shape cast to its own shape first. -/
theorem sq2 (xb : Vec Ideal S10000x128 .f32) (W : Vec Ideal S128x128 .f32) (p : Fin 10000) (q : Fin 128) :
    k2_pay1 xb W (ix2 p q) = ∑ c : Fin 128, xb (ix2 p c) * W (ix2 c q) := by
  unfold k2_pay1
  refine (LibDot.unitDot_apply (m := 10000) (k := 128) (n := 128) _ none
    (truncf .bf16 (shapeCast S10000x128 xb shapeCasts_S10000x128_S10000x128) bitsLt_bf16_f32) (truncf .bf16 W bitsLt_bf16_f32) p q).trans ?_
  rw [shapeCast_self]
  rfl

/-- Bias row added, then the rectifier. -/
theorem biasRelu (xb : Vec Ideal S10000x128 .f32) (r : Vec Ideal S1x128 .f32) (p : Fin 10000) (q : Fin 128) :
    k1_pay1 xb r (ix2 p q) = max (xb (ix2 p q) + r (ix2 (0 : Fin 1) q)) 0 := by
  unfold k1_pay1
  rw [shapeCast_self, shapeCast_self, maximumf_apply, addf_apply, broadcastTo_1b_ab_apply, broadcast_apply]
  refine congrArg (max (xb (ix2 p q) + r (ix2 (0 : Fin 1) q))) ?_
  exact Ideal.ofBits_zero_f32

/-- Bias row added. -/
theorem biasOnly (xb : Vec Ideal S10000x128 .f32) (r : Vec Ideal S1x128 .f32) (p : Fin 10000) (q : Fin 128) :
    k3_pay1 xb r (ix2 p q) = xb (ix2 p q) + r (ix2 (0 : Fin 1) q) := by
  unfold k3_pay1
  rw [shapeCast_self, shapeCast_self, addf_apply, broadcastTo_1b_ab_apply]

/-- The head: row `p` of the block against column `q` of the head's weights, plus the bias of column `q`. -/
theorem head (xb : Vec Ideal S10000x128 .f32) (Wf : Vec Ideal S128x10 .f32) (r : Vec Ideal S1x10 .f32) (p : Fin 10000) (q : Fin 10) :
    k4_pay1 xb Wf r (ix2 p q) = (∑ c : Fin 128, xb (ix2 p c) * Wf (ix2 c q)) + r (ix2 (0 : Fin 1) q) := by
  unfold k4_pay1
  rw [shapeCast_self, shapeCast_self, addf_apply, broadcastTo_1b_ab_apply]
  refine congrArg (· + r (ix2 (0 : Fin 1) q)) ?_
  refine (LibDot.unitDot_apply (m := 10000) (k := 128) (n := 10) _ none (truncf .bf16 xb bitsLt_bf16_f32) (truncf .bf16 Wf bitsLt_bf16_f32) p q).trans ?_
  rfl

end Cert.KernelIdeal.Payloads

end
-- ==== Proof.Region0.lean ====
/-
  What the first matrix-product region leaves in its output array.

  The region walks the 100000 rows of its left operand in ten blocks of 10000 rows; at each block it multiplies the
  block by the whole 128×128 right operand on the matrix unit and writes the product to the same ten thousand rows of
  the output. Entry `(p, q)` of block `t` is the sum over `c` of `x[10000·t + p, c] · W[c, q]`, which is entry
  `(10000·t + p, q)` of the whole product `x · W`; the ten blocks tile the output, so after the region the output
  array IS `x · W`.
-/
import proofs.«117090_j83013127897500_1_alg».proof.Proof.Gen.KernelIdeal.Frame
import proofs.«117090_j83013127897500_1_alg».proof.Proof.Rows
import proofs.«117090_j83013127897500_1_alg».proof.Proof.Payloads
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the ten grid points: the left operand's block moves with the output's down the rows,
    the weights stay put, and point `t` is block `t`. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal) (Cert.Spec.dense (F := Ideal) (V c main_arg0) (V c main_arg1)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x128) offsets_zero]
  obtain ⟨e0, e1, e2, e3, e4, e5⟩ := idx_facts t
  have ht : t.val < 10 := by have h := t.isLt; have hN : cfg0.N = 10 := N_0; omega
  funext y
  obtain ⟨p, q, rfl⟩ : ∃ (p : Fin 10000) (q : Fin 128), y = ix2 p q := ⟨y 0, y 1, eq_ix2 y⟩
  have hout : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show k0_pay1 (iblk0 V c 0 t) (iblk0 V c 1 t) (ix2 p q)
    = Cert.Spec.dense (F := Ideal) (V c main_arg0) (V c main_arg1) (((cfg0.win 2).blk t).view.emb (ix2 p q))
  rw [hout]
  refine (Payloads.sq0 (iblk0 V c 0 t) (iblk0 V c 1 t) p q).trans ?_
  refine Eq.trans ?_ (Cert.Spec.dense_apply (V c main_arg0) (V c main_arg1) ⟨t.val * 10000 + p.val, by omega⟩ q).symm
  refine Finset.sum_congr rfl fun k _ => ?_
  have hx : ((cfg0.win 0).blk t).view.emb (ix2 p k) = ix2 (⟨t.val * 10000 + p.val, by omega⟩ : Fin 100000) k := by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have hw : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hx' : iblk0 V c 0 t (ix2 p k) = V c main_arg0 (ix2 (⟨t.val * 10000 + p.val, by omega⟩ : Fin 100000) k) := by
    show V c main_arg0 (((cfg0.win 0).blk t).view.emb (ix2 p k)) = _
    rw [hx]
  have hw' : iblk0 V c 1 t (ix2 k q) = V c main_arg1 (ix2 k q) := by
    show V c main_arg1 (((cfg0.win 1).blk t).view.emb (ix2 k q)) = _
    rw [hw]
  rw [hx', hw']

/-- An index of the output array lies in point `t`'s block iff each coordinate lies in the block's range. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v16).slice (win0_2.rect t)).set ↔ _
  rw [View.set_slice_whole, Rect.mem_set_unit]
  exact Iff.rfl

/-- Row `r` of the output is written by point `r / 10000`: the ten blocks tile the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by have hN' : cfg0.N = 10 := N_0; omega
  obtain ⟨e0, e1, e2, e3, e4, e5⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    have e5' : win0_2.index ⟨(i 0).val / 10000, hN⟩ (0 : Fin 2) = (i 0).val / 10000 := e5
    omega
  | ⟨1, _⟩ =>
    show win0_2.index ⟨(i 0).val / 10000, hN⟩ (1 : Fin 2) * 128 ≤ (i 1).val ∧ (i 1).val < win0_2.index ⟨(i 0).val / 10000, hN⟩ (1 : Fin 2) * 128 + 128
    omega

/-- After the region its output array is the whole product of the two arrays it found. -/
theorem final (c : Dev nD) :
    (dat0 V c).arrAt 2 cfg0.N = Cert.Spec.dense (F := Ideal) (V c main_arg0) (V c main_arg1) :=
  (dat0 V c).arrAt_eq_of_cover 2 _ (fun t _ => flushed_eq V c t) cover

end Cert.KernelIdeal.Region0

end
-- ==== Proof.Region1.lean ====
/-
  What the first bias region leaves in its output array.

  The region walks the 100000 rows of the aggregated features in ten blocks of 10000 rows; at each block it applies
  the layer's closing step (the one-row bias added to every row, then the maximum with zero)
  and writes the result to the same rows of the output. Entry `(p, q)` of block `t` depends on the input's entry
  `(10000·t + p, q)` and the bias entry `q` alone, so the blocks are the restrictions of one function of the whole
  arrays; they tile the output.
-/
import proofs.«117090_j83013127897500_1_alg».proof.Proof.Gen.KernelIdeal.Frame
import proofs.«117090_j83013127897500_1_alg».proof.Proof.Rows
import proofs.«117090_j83013127897500_1_alg».proof.Proof.Payloads
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the ten grid points: the input's block moves with the output's down the rows, the
    bias row stays put, and point `t` is block `t`. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point `t` writes back is block `t` of the closing step applied to the arrays the region finds. -/
theorem flushed_eq (c : Dev nD) (t : Fin cfg1.N) :
    (dat1 V c).flushed 2 t = ((cfg1.win 2).blk t).view.read (Elt Ideal) (Cert.Spec.biasReluRow (F := Ideal) (V c main_v44) (V c main_v45)) := by
  show (cfg1.win 2).cut (grid1.coords t) ((dat1 V c).after 2 t) = _
  rw [after1_2]
  unfold out1_2
  rw [View.canon_unit_zero offsets_zero]
  simp only [View.ld_unit_zero (S := S10000x128) offsets_zero, View.ld_unit_zero (S := S1x128) offsets_zero]
  obtain ⟨e0, e1, e2, e3, e4, e5⟩ := idx_facts t
  have ht : t.val < 10 := by have h := t.isLt; have hN : cfg1.N = 10 := N_1; omega
  funext y
  obtain ⟨p, q, rfl⟩ : ∃ (p : Fin 10000) (q : Fin 128), y = ix2 p q := ⟨y 0, y 1, eq_ix2 y⟩
  have hout : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  show k1_pay1 (iblk1 V c 0 t) (iblk1 V c 1 t) (ix2 p q)
    = Cert.Spec.biasReluRow (F := Ideal) (V c main_v44) (V c main_v45) (((cfg1.win 2).blk t).view.emb (ix2 p q))
  rw [hout]
  refine (Payloads.biasRelu (iblk1 V c 0 t) (iblk1 V c 1 t) p q).trans ?_
  refine Eq.trans ?_ (Cert.Spec.biasReluRow_apply (V c main_v44) (V c main_v45) ⟨t.val * 10000 + p.val, by omega⟩ q).symm
  have hx : ((cfg1.win 0).blk t).view.emb (ix2 p q) = ix2 (⟨t.val * 10000 + p.val, by omega⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 128 + 1 * q.val = q.val; omega
  have hr : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have hx' : iblk1 V c 0 t (ix2 p q) = V c main_v44 (ix2 (⟨t.val * 10000 + p.val, by omega⟩ : Fin 100000) q) := by
    show V c main_v44 (((cfg1.win 0).blk t).view.emb (ix2 p q)) = _
    rw [hx]
  have hr' : iblk1 V c 1 t (ix2 (0 : Fin 1) q) = V c main_v45 (ix2 (0 : Fin 1) q) := by
    show V c main_v45 (((cfg1.win 1).blk t).view.emb (ix2 (0 : Fin 1) q)) = _
    rw [hr]
  rw [hx', hr']

/-- An index of the output array lies in point `t`'s block iff each coordinate lies in the block's range. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- Row `r` of the output is written by point `r / 10000`: the ten blocks tile the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 10000 < cfg1.N := by have hN' : cfg1.N = 10 := N_1; omega
  obtain ⟨e0, e1, e2, e3, e4, e5⟩ := idx_facts ⟨(i 0).val / 10000, hN⟩
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    have e5' : win1_2.index ⟨(i 0).val / 10000, hN⟩ (0 : Fin 2) = (i 0).val / 10000 := e5
    omega
  | ⟨1, _⟩ =>
    show win1_2.index ⟨(i 0).val / 10000, hN⟩ (1 : Fin 2) * 128 ≤ (i 1).val ∧ (i 1).val < win1_2.index ⟨(i 0).val / 10000, hN⟩ (1 : Fin 2) * 128 + 128
    omega

/-- After the region its output array is the closing step applied to the two arrays it found. -/
theorem final (c : Dev nD) :
    (dat1 V c).arrAt 2 cfg1.N = Cert.Spec.biasReluRow (F := Ideal) (V c main_v44) (V c main_v45) :=
  (dat1 V c).arrAt_eq_of_cover 2 _ (fun t _ => flushed_eq V c t) cover

end Cert.KernelIdeal.Region1

end
-- ==== Proof.Region2.lean ====
/-
  What the second matrix-product region leaves in its output array.

  The region walks the 100000 rows of its left operand in ten blocks of 10000 rows; at each block it multiplies the
  block by the whole 128×128 right operand on the matrix unit and writes the product to the same ten thousand rows of
  the output. Entry `(p, q)` of block `t` is the sum over `c` of `x[10000·t + p, c] · W[c, q]`, which is entry
  `(10000·t + p, q)` of the whole product `x · W`; the ten blocks tile the output, so after the region the output
  array IS `x · W`.
-/
import proofs.«117090_j83013127897500_1_alg».proof.Proof.Gen.KernelIdeal.Frame
import proofs.«117090_j83013127897500_1_alg».proof.Proof.Rows
import proofs.«117090_j83013127897500_1_alg».proof.Proof.Payloads
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the ten grid points: the left operand's block moves with the output's down the rows,
    the weights stay put, and point `t` is block `t`. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What point `t` writes back is block `t` of the whole product of the arrays the region finds. -/
theorem flushed_eq (c : Dev nD) (t : Fin cfg2.N) :
    (dat2 V c).flushed 2 t = ((cfg2.win 2).blk t).view.read (Elt Ideal) (Cert.Spec.dense (F := Ideal) (V c main_v46) (V c main_arg3)) := by
  show (cfg2.win 2).cut (grid2.coords t) ((dat2 V c).after 2 t) = _
  rw [after2_2]
  unfold out2_2
  rw [View.canon_unit_zero offsets_zero]
  simp only [View.ld_unit_zero (S := S10000x128) offsets_zero, View.ld_unit_zero (S := S128x128) offsets_zero]
  obtain ⟨e0, e1, e2, e3, e4, e5⟩ := idx_facts t
  have ht : t.val < 10 := by have h := t.isLt; have hN : cfg2.N = 10 := N_2; omega
  funext y
  obtain ⟨p, q, rfl⟩ : ∃ (p : Fin 10000) (q : Fin 128), y = ix2 p q := ⟨y 0, y 1, eq_ix2 y⟩
  have hout : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  show k2_pay1 (iblk2 V c 0 t) (iblk2 V c 1 t) (ix2 p q)
    = Cert.Spec.dense (F := Ideal) (V c main_v46) (V c main_arg3) (((cfg2.win 2).blk t).view.emb (ix2 p q))
  rw [hout]
  refine (Payloads.sq2 (iblk2 V c 0 t) (iblk2 V c 1 t) p q).trans ?_
  refine Eq.trans ?_ (Cert.Spec.dense_apply (V c main_v46) (V c main_arg3) ⟨t.val * 10000 + p.val, by omega⟩ q).symm
  refine Finset.sum_congr rfl fun k _ => ?_
  have hx : ((cfg2.win 0).blk t).view.emb (ix2 p k) = ix2 (⟨t.val * 10000 + p.val, by omega⟩ : Fin 100000) k := by
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  have hw : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have hx' : iblk2 V c 0 t (ix2 p k) = V c main_v46 (ix2 (⟨t.val * 10000 + p.val, by omega⟩ : Fin 100000) k) := by
    show V c main_v46 (((cfg2.win 0).blk t).view.emb (ix2 p k)) = _
    rw [hx]
  have hw' : iblk2 V c 1 t (ix2 k q) = V c main_arg3 (ix2 k q) := by
    show V c main_arg3 (((cfg2.win 1).blk t).view.emb (ix2 k q)) = _
    rw [hw]
  rw [hx', hw']

/-- An index of the output array lies in point `t`'s block iff each coordinate lies in the block's range. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v47).slice (win2_2.rect t)).set ↔ _
  rw [View.set_slice_whole, Rect.mem_set_unit]
  exact Iff.rfl

/-- Row `r` of the output is written by point `r / 10000`: the ten blocks tile the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 10000 < cfg2.N := by have hN' : cfg2.N = 10 := N_2; omega
  obtain ⟨e0, e1, e2, e3, e4, e5⟩ := idx_facts ⟨(i 0).val / 10000, hN⟩
  refine ⟨⟨(i 0).val / 10000, hN⟩, flush2_2 _, ?_⟩
  rw [mem_blk]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    have e5' : win2_2.index ⟨(i 0).val / 10000, hN⟩ (0 : Fin 2) = (i 0).val / 10000 := e5
    omega
  | ⟨1, _⟩ =>
    show win2_2.index ⟨(i 0).val / 10000, hN⟩ (1 : Fin 2) * 128 ≤ (i 1).val ∧ (i 1).val < win2_2.index ⟨(i 0).val / 10000, hN⟩ (1 : Fin 2) * 128 + 128
    omega

/-- After the region its output array is the whole product of the two arrays it found. -/
theorem final (c : Dev nD) :
    (dat2 V c).arrAt 2 cfg2.N = Cert.Spec.dense (F := Ideal) (V c main_v46) (V c main_arg3) :=
  (dat2 V c).arrAt_eq_of_cover 2 _ (fun t _ => flushed_eq V c t) cover

end Cert.KernelIdeal.Region2

end
-- ==== Proof.Region3.lean ====
/-
  What the second bias region leaves in its output array.

  The region walks the 100000 rows of the aggregated features in ten blocks of 10000 rows; at each block it applies
  the layer's closing step (the one-row bias added to every row)
  and writes the result to the same rows of the output. Entry `(p, q)` of block `t` depends on the input's entry
  `(10000·t + p, q)` and the bias entry `q` alone, so the blocks are the restrictions of one function of the whole
  arrays; they tile the output.
-/
import proofs.«117090_j83013127897500_1_alg».proof.Proof.Gen.KernelIdeal.Frame
import proofs.«117090_j83013127897500_1_alg».proof.Proof.Rows
import proofs.«117090_j83013127897500_1_alg».proof.Proof.Payloads
import Idealize.ShloMosaic.Lib.Pipeline.Value

set_option maxRecDepth 16384

noncomputable section

open scoped BigOperators

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the ten grid points: the input's block moves with the output's down the rows, the
    bias row stays put, and point `t` is block `t`. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) = t.val :=
  (by decide +kernel : ∀ t : Fin grid3.N, _)

/-- What point `t` writes back is block `t` of the closing step applied to the arrays the region finds. -/
theorem flushed_eq (c : Dev nD) (t : Fin cfg3.N) :
    (dat3 V c).flushed 2 t = ((cfg3.win 2).blk t).view.read (Elt Ideal) (Cert.Spec.biasOnlyRow (F := Ideal) (V c main_v75) (V c main_v76)) := by
  show (cfg3.win 2).cut (grid3.coords t) ((dat3 V c).after 2 t) = _
  rw [after3_2]
  unfold out3_2
  rw [View.canon_unit_zero offsets_zero]
  simp only [View.ld_unit_zero (S := S10000x128) offsets_zero, View.ld_unit_zero (S := S1x128) offsets_zero]
  obtain ⟨e0, e1, e2, e3, e4, e5⟩ := idx_facts t
  have ht : t.val < 10 := by have h := t.isLt; have hN : cfg3.N = 10 := N_3; omega
  funext y
  obtain ⟨p, q, rfl⟩ : ∃ (p : Fin 10000) (q : Fin 128), y = ix2 p q := ⟨y 0, y 1, eq_ix2 y⟩
  have hout : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  show k3_pay1 (iblk3 V c 0 t) (iblk3 V c 1 t) (ix2 p q)
    = Cert.Spec.biasOnlyRow (F := Ideal) (V c main_v75) (V c main_v76) (((cfg3.win 2).blk t).view.emb (ix2 p q))
  rw [hout]
  refine (Payloads.biasOnly (iblk3 V c 0 t) (iblk3 V c 1 t) p q).trans ?_
  refine Eq.trans ?_ (Cert.Spec.biasOnlyRow_apply (V c main_v75) (V c main_v76) ⟨t.val * 10000 + p.val, by omega⟩ q).symm
  have hx : ((cfg3.win 0).blk t).view.emb (ix2 p q) = ix2 (⟨t.val * 10000 + p.val, by omega⟩ : Fin 100000) q := by
    funext a; apply Fin.ext
    match a with
    | ⟨0, _⟩ => show win3_0.index t (0 : Fin 2) * 10000 + 1 * p.val = t.val * 10000 + p.val; omega
    | ⟨1, _⟩ => show win3_0.index t (1 : Fin 2) * 128 + 1 * q.val = q.val; omega
  have hr : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have hx' : iblk3 V c 0 t (ix2 p q) = V c main_v75 (ix2 (⟨t.val * 10000 + p.val, by omega⟩ : Fin 100000) q) := by
    show V c main_v75 (((cfg3.win 0).blk t).view.emb (ix2 p q)) = _
    rw [hx]
  have hr' : iblk3 V c 1 t (ix2 (0 : Fin 1) q) = V c main_v76 (ix2 (0 : Fin 1) q) := by
    show V c main_v76 (((cfg3.win 1).blk t).view.emb (ix2 (0 : Fin 1) q)) = _
    rw [hr]
  rw [hx', hr']

/-- An index of the output array lies in point `t`'s block iff each coordinate lies in the block's range. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v77).slice (win3_2.rect t)).set ↔ _
  rw [View.set_slice_whole, Rect.mem_set_unit]
  exact Iff.rfl

/-- Row `r` of the output is written by point `r / 10000`: the ten blocks tile the array. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : (i 0).val / 10000 < cfg3.N := by have hN' : cfg3.N = 10 := N_3; omega
  obtain ⟨e0, e1, e2, e3, e4, e5⟩ := idx_facts ⟨(i 0).val / 10000, hN⟩
  refine ⟨⟨(i 0).val / 10000, hN⟩, flush3_2 _, ?_⟩
  rw [mem_blk]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    have e5' : win3_2.index ⟨(i 0).val / 10000, hN⟩ (0 : Fin 2) = (i 0).val / 10000 := e5
    omega
  | ⟨1, _⟩ =>
    show win3_2.index ⟨(i 0).val / 10000, hN⟩ (1 : Fin 2) * 128 ≤ (i 1).val ∧ (i 1).val < win3_2.index ⟨(i 0).val / 10000, hN⟩ (1 : Fin 2) * 128 + 128
    omega

/-- After the region its output array is the closing step applied to the two arrays it found. -/
theorem final (c : Dev nD) :
    (dat3 V c).arrAt 2 cfg3.N = Cert.Spec.biasOnlyRow (F := Ideal) (V c main_v75) (V c main_v76) :=
  (dat3 V c).arrAt_eq_of_cover 2 _ (fun t _ => flushed_eq V c t) cover

end Cert.KernelIdeal.Region3

end
-- ==== Proof.Region4.lean ====
/-
  What the head region leaves in its output array.

  The region walks the 100000 rows of the second layer's output in ten blocks of 10000 rows; at each block it
  multiplies the block by the whole 128×10 head weights on the matrix unit, adds the one-row head bias to every row,
  and writes the 10000×10 result to the same rows of the output. Entry `(p, q)` of block `t` is the sum over `c` of
  `h[10000·t + p, c] · Wf[c, q]` plus the bias entry `q`: entry `(10000·t + p, q)` of the head of the whole arrays.
  The ten blocks tile the 100000×10 output.
-/
import proofs.«117090_j83013127897500_1_alg».proof.Proof.Gen.KernelIdeal.Frame
import proofs.«117090_j83013127897500_1_alg».proof.Proof.Rows
import proofs.«117090_j83013127897500_1_alg».proof.Proof.Payloads
import Idealize.ShloMosaic.Lib.Pipeline.Value

set_option maxRecDepth 16384

noncomputable section

open scoped BigOperators

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the ten grid points: the features' block moves with the output's down the rows, the
    weights and the bias row stay put, and point `t` is block `t`. -/
theorem idx_facts : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) = t.val :=
  (by decide +kernel : ∀ t : Fin grid4.N, _)

/-- What point `t` writes back is block `t` of the head of the arrays the region finds. -/
theorem flushed_eq (c : Dev nD) (t : Fin cfg4.N) :
    (dat4 V c).flushed 3 t = ((cfg4.win 3).blk t).view.read (Elt Ideal) (Cert.Spec.headRow (F := Ideal) (V c main_v77) (V c main_arg5) (V c main_v78)) := by
  show (cfg4.win 3).cut (grid4.coords t) ((dat4 V c).after 3 t) = _
  rw [after4_3]
  unfold out4_3
  rw [View.canon_unit_zero offsets_zero]
  simp only [View.ld_unit_zero (S := S10000x128) offsets_zero, View.ld_unit_zero (S := S128x10) offsets_zero, View.ld_unit_zero (S := S1x10) offsets_zero]
  obtain ⟨e0, e1, e2, e3, e4, e5, e6, e7⟩ := idx_facts t
  have ht : t.val < 10 := by have h := t.isLt; have hN : cfg4.N = 10 := N_4; omega
  funext y
  obtain ⟨p, q, rfl⟩ : ∃ (p : Fin 10000) (q : Fin 10), y = ix2 p q := ⟨y 0, y 1, eq_ix2 y⟩
  have hout : ((cfg4.win 3).blk t).view.emb (ix2 p q) = ix2 (⟨t.val * 10000 + p.val, by omega⟩ : Fin 100000) q := by
    funext a; apply Fin.ext
    match a with
    | ⟨0, _⟩ => show win4_3.index t (0 : Fin 2) * 10000 + 1 * p.val = t.val * 10000 + p.val; omega
    | ⟨1, _⟩ => show win4_3.index t (1 : Fin 2) * 10 + 1 * q.val = q.val; omega
  show k4_pay1 (iblk4 V c 0 t) (iblk4 V c 1 t) (iblk4 V c 2 t) (ix2 p q)
    = Cert.Spec.headRow (F := Ideal) (V c main_v77) (V c main_arg5) (V c main_v78) (((cfg4.win 3).blk t).view.emb (ix2 p q))
  rw [hout]
  refine (Payloads.head (iblk4 V c 0 t) (iblk4 V c 1 t) (iblk4 V c 2 t) p q).trans ?_
  refine Eq.trans ?_ (Cert.Spec.headRow_apply (V c main_v77) (V c main_arg5) (V c main_v78) ⟨t.val * 10000 + p.val, by omega⟩ q).symm
  have hr : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 10 + 1 * q.val = q.val; omega
  have hr' : iblk4 V c 2 t (ix2 (0 : Fin 1) q) = V c main_v78 (ix2 (0 : Fin 1) q) := by
    show V c main_v78 (((cfg4.win 2).blk t).view.emb (ix2 (0 : Fin 1) q)) = _
    rw [hr]
  rw [hr']
  refine congrArg (· + V c main_v78 (ix2 (0 : Fin 1) q)) ?_
  refine Finset.sum_congr rfl fun k _ => ?_
  have hx : ((cfg4.win 0).blk t).view.emb (ix2 p k) = ix2 (⟨t.val * 10000 + p.val, by omega⟩ : Fin 100000) k := by
    funext a; apply Fin.ext
    match a with
    | ⟨0, _⟩ => show win4_0.index t (0 : Fin 2) * 10000 + 1 * p.val = t.val * 10000 + p.val; omega
    | ⟨1, _⟩ => show win4_0.index t (1 : Fin 2) * 128 + 1 * k.val = k.val; omega
  have hw : ((cfg4.win 1).blk t).view.emb (ix2 k q) = ix2 k q := by
    funext a; apply Fin.ext
    match a with
    | ⟨0, _⟩ => show win4_1.index t (0 : Fin 2) * 128 + 1 * k.val = k.val; omega
    | ⟨1, _⟩ => show win4_1.index t (1 : Fin 2) * 10 + 1 * q.val = q.val; omega
  have hx' : iblk4 V c 0 t (ix2 p k) = V c main_v77 (ix2 (⟨t.val * 10000 + p.val, by omega⟩ : Fin 100000) k) := by
    show V c main_v77 (((cfg4.win 0).blk t).view.emb (ix2 p k)) = _
    rw [hx]
  have hw' : iblk4 V c 1 t (ix2 k q) = V c main_arg5 (ix2 k q) := by
    show V c main_arg5 (((cfg4.win 1).blk t).view.emb (ix2 k q)) = _
    rw [hw]
  rw [hx', hw']

/-- An index of the output array lies in point `t`'s block iff each coordinate lies in the block's range. -/
theorem mem_blk (t : Fin cfg4.N) (i : S100000x10.Idx) :
    i ∈ ((cfg4.win 3).blk t).view.set ↔ ∀ a : Fin 2, win4_3.index t a * S10000x10.size a ≤ (i a).val ∧ (i a).val < win4_3.index t a * S10000x10.size a + S10000x10.size a := by
  show i ∈ ((View.whole main_v79).slice (win4_3.rect t)).set ↔ _
  rw [View.set_slice_whole, Rect.mem_set_unit]
  exact Iff.rfl

/-- Row `r` of the output is written by point `r / 10000`: the ten blocks tile the array. -/
theorem cover (i : S100000x10.Idx) : ∃ t : Fin cfg4.N, (cfg4.win 3).flush t = true ∧ i ∈ ((cfg4.win 3).blk t).view.set := by
  have hi0 : (i 0).val < 100000 := (i 0).isLt
  have hi1 : (i 1).val < 10 := (i 1).isLt
  have hN : (i 0).val / 10000 < cfg4.N := by have hN' : cfg4.N = 10 := N_4; omega
  obtain ⟨e0, e1, e2, e3, e4, e5, e6, e7⟩ := idx_facts ⟨(i 0).val / 10000, hN⟩
  refine ⟨⟨(i 0).val / 10000, hN⟩, flush4_3 _, ?_⟩
  rw [mem_blk]
  intro a
  match a with
  | ⟨0, _⟩ =>
    show win4_3.index ⟨(i 0).val / 10000, hN⟩ (0 : Fin 2) * 10000 ≤ (i 0).val ∧ (i 0).val < win4_3.index ⟨(i 0).val / 10000, hN⟩ (0 : Fin 2) * 10000 + 10000
    have e7' : win4_3.index ⟨(i 0).val / 10000, hN⟩ (0 : Fin 2) = (i 0).val / 10000 := e7
    omega
  | ⟨1, _⟩ =>
    show win4_3.index ⟨(i 0).val / 10000, hN⟩ (1 : Fin 2) * 10 ≤ (i 1).val ∧ (i 1).val < win4_3.index ⟨(i 0).val / 10000, hN⟩ (1 : Fin 2) * 10 + 10
    omega

/-- After the region its output array is the head of the three arrays it found. -/
theorem final (c : Dev nD) :
    (dat4 V c).arrAt 3 cfg4.N = Cert.Spec.headRow (F := Ideal) (V c main_v77) (V c main_arg5) (V c main_v78) :=
  (dat4 V c).arrAt_eq_of_cover 3 _ (fun t _ => flushed_eq V c t) cover

end Cert.KernelIdeal.Region4

end
-- ==== Proof.Stretches.lean ====
/-
  The host operations of the kernel program between its five regions, read as functions of the contents they start
  from.

  Before the first region the program builds the edge bookkeeping from the edge array: the source and destination
  lists with the self loops appended, the in-degrees, and `deg ^ (-1/2)`. Between the first and the second region,
  and again between the third and the fourth, it aggregates the product just formed along the edges and reshapes the
  layer's bias vector to a row; before the last region it reshapes the head's bias. Each result is the model's own
  function (the same chain of operations, over the other program's names for the same shapes and dimension records)
  of the buffers the stretch reads, whatever those hold; and a stretch leaves every buffer it does not write as it
  found it. No float law is used: the equations hold for every float family.
-/
import proofs.«117090_j83013127897500_1_alg».proof.Proof.Gen.KernelIdeal.Launch
import proofs.«117090_j83013127897500_1_alg».proof.Proof.Spec
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.ShloMosaic.StableHlo

variable {F : FTy → Type} [FloatOps F]
variable (Wp : Valuation τ sig (Elt F))

/-- A stretch leaves a buffer none of its operations writes as it was: every operation's one result buffer is another. -/
macro "kept_through" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## Before the first region: the edge bookkeeping -/

/-- The three stretches before the first region, in order. -/
abbrev pre : Valuation τ sig (Elt F) := after hostOps0_2 (after hostOps0_1 (after hostOps0 Wp))

theorem pre_src : pre Wp (Proc.devRef .tc main_v5) = Cert.Spec.srcIdx (F := F) (Wp (Proc.devRef .tc main_arg7)) := by
  show after hostOps0_2 (after hostOps0_1 (after hostOps0 Wp)) (Proc.devRef .tc main_v5) = _
  simp only [hostOps0_2, hostOps0_1, hostOps0]
  after_results
  rfl

theorem pre_dst : pre Wp (Proc.devRef .tc main_v6) = Cert.Spec.dstIdx (F := F) (Wp (Proc.devRef .tc main_arg7)) := by
  show after hostOps0_2 (after hostOps0_1 (after hostOps0 Wp)) (Proc.devRef .tc main_v6) = _
  simp only [hostOps0_2, hostOps0_1, hostOps0]
  after_results
  rfl

set_option maxHeartbeats 4000000 in
theorem pre_dis : pre Wp (Proc.devRef .tc main_v15)
    = Cert.Spec.invSqrt (F := F) (Cert.Spec.degree (Cert.Spec.dstIdx (Wp (Proc.devRef .tc main_arg7)))) := by
  show after hostOps0_2 (after hostOps0_1 (after hostOps0 Wp)) (Proc.devRef .tc main_v15) = _
  simp only [hostOps0_2, hostOps0_1, hostOps0]
  after_results
  rfl

/-- The seven float arguments pass the bookkeeping untouched. -/
theorem pre_arg0 : pre Wp (Proc.devRef .tc main_arg0) = Wp (Proc.devRef .tc main_arg0) :=
  (by kept_through hostOps0_2 : after hostOps0_2 _ _ = _).trans ((by kept_through hostOps0_1 : after hostOps0_1 _ _ = _).trans (by kept_through hostOps0))
theorem pre_arg1 : pre Wp (Proc.devRef .tc main_arg1) = Wp (Proc.devRef .tc main_arg1) :=
  (by kept_through hostOps0_2 : after hostOps0_2 _ _ = _).trans ((by kept_through hostOps0_1 : after hostOps0_1 _ _ = _).trans (by kept_through hostOps0))
theorem pre_arg2 : pre Wp (Proc.devRef .tc main_arg2) = Wp (Proc.devRef .tc main_arg2) :=
  (by kept_through hostOps0_2 : after hostOps0_2 _ _ = _).trans ((by kept_through hostOps0_1 : after hostOps0_1 _ _ = _).trans (by kept_through hostOps0))
theorem pre_arg3 : pre Wp (Proc.devRef .tc main_arg3) = Wp (Proc.devRef .tc main_arg3) :=
  (by kept_through hostOps0_2 : after hostOps0_2 _ _ = _).trans ((by kept_through hostOps0_1 : after hostOps0_1 _ _ = _).trans (by kept_through hostOps0))
theorem pre_arg4 : pre Wp (Proc.devRef .tc main_arg4) = Wp (Proc.devRef .tc main_arg4) :=
  (by kept_through hostOps0_2 : after hostOps0_2 _ _ = _).trans ((by kept_through hostOps0_1 : after hostOps0_1 _ _ = _).trans (by kept_through hostOps0))

/-! ## Between the first and the second region: the first aggregation -/

theorem mid1_agg : after hostOps1 Wp (Proc.devRef .tc main_v44)
    = Cert.Spec.aggregate (F := F) (Wp (Proc.devRef .tc main_v15)) (Wp (Proc.devRef .tc main_v5)) (Wp (Proc.devRef .tc main_v6)) (Wp (Proc.devRef .tc main_v16)) := by
  simp only [hostOps1]
  after_results_simp
  rfl

theorem mid1_row : after hostOps1 Wp (Proc.devRef .tc main_v45)
    = shapeCast S1x128 (Wp (Proc.devRef .tc main_arg2)) shapeCasts_S128_S1x128 := by
  simp only [hostOps1]
  after_results
  rfl

theorem mid1_v5 : after hostOps1 Wp (Proc.devRef .tc main_v5) = Wp (Proc.devRef .tc main_v5) := by kept_through hostOps1
theorem mid1_v6 : after hostOps1 Wp (Proc.devRef .tc main_v6) = Wp (Proc.devRef .tc main_v6) := by kept_through hostOps1
theorem mid1_v15 : after hostOps1 Wp (Proc.devRef .tc main_v15) = Wp (Proc.devRef .tc main_v15) := by kept_through hostOps1
theorem mid1_arg3 : after hostOps1 Wp (Proc.devRef .tc main_arg3) = Wp (Proc.devRef .tc main_arg3) := by kept_through hostOps1
theorem mid1_arg4 : after hostOps1 Wp (Proc.devRef .tc main_arg4) = Wp (Proc.devRef .tc main_arg4) := by kept_through hostOps1

/-! ## Between the third and the fourth region: the second aggregation -/

theorem mid3_agg : after hostOps3 Wp (Proc.devRef .tc main_v75)
    = Cert.Spec.aggregate (F := F) (Wp (Proc.devRef .tc main_v15)) (Wp (Proc.devRef .tc main_v5)) (Wp (Proc.devRef .tc main_v6)) (Wp (Proc.devRef .tc main_v47)) := by
  simp only [hostOps3]
  after_results_simp
  rfl

theorem mid3_row : after hostOps3 Wp (Proc.devRef .tc main_v76)
    = shapeCast S1x128 (Wp (Proc.devRef .tc main_arg4)) shapeCasts_S128_S1x128 := by
  simp only [hostOps3]
  after_results
  rfl

/-! ## Before the last region: the head's bias row -/

theorem last_row : after hostOps4 Wp (Proc.devRef .tc main_v78)
    = shapeCast S1x10 (Wp (Proc.devRef .tc main_arg6)) shapeCasts_S10_S1x10 := by
  simp only [hostOps4]
  after_results
  rfl

theorem last_v77 : after hostOps4 Wp (Proc.devRef .tc main_v77) = Wp (Proc.devRef .tc main_v77) := by kept_through hostOps4
theorem last_arg5 : after hostOps4 Wp (Proc.devRef .tc main_arg5) = Wp (Proc.devRef .tc main_arg5) := by kept_through hostOps4
theorem last_arg6 : after hostOps4 Wp (Proc.devRef .tc main_arg6) = Wp (Proc.devRef .tc main_arg6) := by kept_through hostOps4

end Cert.KernelIdeal.Stretches

end
-- ==== Proof.KValue.lean ====
/-
  The two results of the kernel program as the model's functions of its arguments.

  The contents of the program's buffers are followed from the launch to the return, boundary by boundary: a host
  stretch changes the buffers it writes to the model's functions of the buffers it reads (the edge bookkeeping first,
  then one aggregation per layer) and keeps the rest; a region changes its output array to its function of its input
  arrays (a product, a bias step, a product, a bias step, the head) and keeps the rest. Composing the ten steps, the
  first result holds

      (bias₂ row) + aggregate(relu((bias₁ row) + aggregate(x · W₁)) · W₂),

  which is the model's two-layer output once each bias row — the bias vector reshaped — is read as the vector
  broadcast to a row; and the second result holds the head of the first.
-/
import proofs.«117090_j83013127897500_1_alg».proof.Proof.Gen.KernelIdeal.Frame
import proofs.«117090_j83013127897500_1_alg».proof.Proof.Region0
import proofs.«117090_j83013127897500_1_alg».proof.Proof.Region1
import proofs.«117090_j83013127897500_1_alg».proof.Proof.Region2
import proofs.«117090_j83013127897500_1_alg».proof.Proof.Region3
import proofs.«117090_j83013127897500_1_alg».proof.Proof.Region4
import proofs.«117090_j83013127897500_1_alg».proof.Proof.Stretches
import proofs.«117090_j83013127897500_1_alg».proof.Proof.Rows

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The eight arguments as launched, at the shapes the model names them by. -/
abbrev aX : Cert.Spec.Arr Ideal Cert.ReferenceIdeal.S100000x128 .f32 := m ((c : Thread nD τ).loc main_arg0)
abbrev aW1 : Cert.Spec.Arr Ideal Cert.ReferenceIdeal.S128x128 .f32 := m ((c : Thread nD τ).loc main_arg1)
abbrev aB1 : Cert.Spec.Arr Ideal Cert.ReferenceIdeal.S128 .f32 := m ((c : Thread nD τ).loc main_arg2)
abbrev aW2 : Cert.Spec.Arr Ideal Cert.ReferenceIdeal.S128x128 .f32 := m ((c : Thread nD τ).loc main_arg3)
abbrev aB2 : Cert.Spec.Arr Ideal Cert.ReferenceIdeal.S128 .f32 := m ((c : Thread nD τ).loc main_arg4)
abbrev aWf : Cert.Spec.Arr Ideal Cert.ReferenceIdeal.S128x10 .f32 := m ((c : Thread nD τ).loc main_arg5)
abbrev aBf : Cert.Spec.Arr Ideal Cert.ReferenceIdeal.S10 .f32 := m ((c : Thread nD τ).loc main_arg6)
abbrev aE : Cert.Spec.Arr Ideal Cert.ReferenceIdeal.S2x1600000 .i32 := m ((c : Thread nD τ).loc main_arg7)

/-! ## At the first region's entry: the arguments and the edge bookkeeping -/

theorem at3_x : W3 m ρ c (Proc.devRef .tc main_arg0) = (aX m c) := Stretches.pre_arg0 (W0 m ρ c)
theorem at3_w1 : W3 m ρ c (Proc.devRef .tc main_arg1) = (aW1 m c) := Stretches.pre_arg1 (W0 m ρ c)
theorem at3_b1 : W3 m ρ c (Proc.devRef .tc main_arg2) = (aB1 m c) := Stretches.pre_arg2 (W0 m ρ c)
theorem at3_w2 : W3 m ρ c (Proc.devRef .tc main_arg3) = (aW2 m c) := Stretches.pre_arg3 (W0 m ρ c)
theorem at3_b2 : W3 m ρ c (Proc.devRef .tc main_arg4) = (aB2 m c) := Stretches.pre_arg4 (W0 m ρ c)
theorem at3_src : W3 m ρ c (Proc.devRef .tc main_v5) = Cert.Spec.srcIdx (F := Ideal) (aE m c) := Stretches.pre_src (W0 m ρ c)
theorem at3_dst : W3 m ρ c (Proc.devRef .tc main_v6) = Cert.Spec.dstIdx (F := Ideal) (aE m c) := Stretches.pre_dst (W0 m ρ c)
theorem at3_dis : W3 m ρ c (Proc.devRef .tc main_v15) = Cert.Spec.invSqrt (F := Ideal) (Cert.Spec.degree (Cert.Spec.dstIdx (aE m c))) :=
  Stretches.pre_dis (W0 m ρ c)

/-! ## After the first region: the first product -/

theorem at4_xw : W4 m ρ c (Proc.devRef .tc main_v16) = Cert.Spec.dense (F := Ideal) (aX m c) (aW1 m c) :=
  (W4_arr m ρ c 2).trans ((Region0.final (V3 m ρ) c).trans (congrArg₂ (Cert.Spec.dense (F := Ideal)) (at3_x m ρ c) (at3_w1 m ρ c)))
theorem at4_b1 : W4 m ρ c (Proc.devRef .tc main_arg2) = (aB1 m c) := (W4_of_ne m ρ c main_arg2 (by decide)).trans (at3_b1 m ρ c)
theorem at4_w2 : W4 m ρ c (Proc.devRef .tc main_arg3) = (aW2 m c) := (W4_of_ne m ρ c main_arg3 (by decide)).trans (at3_w2 m ρ c)
theorem at4_b2 : W4 m ρ c (Proc.devRef .tc main_arg4) = (aB2 m c) := (W4_of_ne m ρ c main_arg4 (by decide)).trans (at3_b2 m ρ c)
theorem at4_src : W4 m ρ c (Proc.devRef .tc main_v5) = Cert.Spec.srcIdx (F := Ideal) (aE m c) := (W4_of_ne m ρ c main_v5 (by decide)).trans (at3_src m ρ c)
theorem at4_dst : W4 m ρ c (Proc.devRef .tc main_v6) = Cert.Spec.dstIdx (F := Ideal) (aE m c) := (W4_of_ne m ρ c main_v6 (by decide)).trans (at3_dst m ρ c)
theorem at4_dis : W4 m ρ c (Proc.devRef .tc main_v15) = Cert.Spec.invSqrt (F := Ideal) (Cert.Spec.degree (Cert.Spec.dstIdx (aE m c))) :=
  (W4_of_ne m ρ c main_v15 (by decide)).trans (at3_dis m ρ c)

/-! ## At the second region's entry: the first aggregation and the first bias row -/

theorem at5_agg : W5 m ρ c (Proc.devRef .tc main_v44) = Cert.Spec.propagate (F := Ideal) (aE m c) (Cert.Spec.dense (aX m c) (aW1 m c)) :=
  (Stretches.mid1_agg (W4 m ρ c)).trans (by rw [at4_dis m ρ c, at4_src m ρ c, at4_dst m ρ c, at4_xw m ρ c]; rfl)
theorem at5_row : W5 m ρ c (Proc.devRef .tc main_v45) = shapeCast S1x128 (aB1 m c) shapeCasts_S128_S1x128 :=
  (Stretches.mid1_row (W4 m ρ c)).trans (by rw [at4_b1 m ρ c])
theorem at5_w2 : W5 m ρ c (Proc.devRef .tc main_arg3) = (aW2 m c) := (Stretches.mid1_arg3 (W4 m ρ c)).trans (at4_w2 m ρ c)
theorem at5_b2 : W5 m ρ c (Proc.devRef .tc main_arg4) = (aB2 m c) := (Stretches.mid1_arg4 (W4 m ρ c)).trans (at4_b2 m ρ c)
theorem at5_src : W5 m ρ c (Proc.devRef .tc main_v5) = Cert.Spec.srcIdx (F := Ideal) (aE m c) := (Stretches.mid1_v5 (W4 m ρ c)).trans (at4_src m ρ c)
theorem at5_dst : W5 m ρ c (Proc.devRef .tc main_v6) = Cert.Spec.dstIdx (F := Ideal) (aE m c) := (Stretches.mid1_v6 (W4 m ρ c)).trans (at4_dst m ρ c)
theorem at5_dis : W5 m ρ c (Proc.devRef .tc main_v15) = Cert.Spec.invSqrt (F := Ideal) (Cert.Spec.degree (Cert.Spec.dstIdx (aE m c))) :=
  (Stretches.mid1_v15 (W4 m ρ c)).trans (at4_dis m ρ c)

/-- The first layer's output, rectified, with its bias as the reshaped row. -/
abbrev hid1 : Cert.Spec.Arr Ideal Cert.ReferenceIdeal.S100000x128 .f32 :=
  Cert.Spec.biasReluRow (F := Ideal) (Cert.Spec.propagate (aE m c) (Cert.Spec.dense (aX m c) (aW1 m c))) (shapeCast S1x128 (aB1 m c) shapeCasts_S128_S1x128)

/-! ## After the second and the third region -/

theorem at6_h1 : W6 m ρ c (Proc.devRef .tc main_v46) = hid1 m c :=
  (W6_arr m ρ c 2).trans ((Region1.final (V5 m ρ) c).trans (congrArg₂ (Cert.Spec.biasReluRow (F := Ideal)) (at5_agg m ρ c) (at5_row m ρ c)))
theorem at6_w2 : W6 m ρ c (Proc.devRef .tc main_arg3) = (aW2 m c) := (W6_of_ne m ρ c main_arg3 (by decide)).trans (at5_w2 m ρ c)
theorem at6_b2 : W6 m ρ c (Proc.devRef .tc main_arg4) = (aB2 m c) := (W6_of_ne m ρ c main_arg4 (by decide)).trans (at5_b2 m ρ c)
theorem at6_src : W6 m ρ c (Proc.devRef .tc main_v5) = Cert.Spec.srcIdx (F := Ideal) (aE m c) := (W6_of_ne m ρ c main_v5 (by decide)).trans (at5_src m ρ c)
theorem at6_dst : W6 m ρ c (Proc.devRef .tc main_v6) = Cert.Spec.dstIdx (F := Ideal) (aE m c) := (W6_of_ne m ρ c main_v6 (by decide)).trans (at5_dst m ρ c)
theorem at6_dis : W6 m ρ c (Proc.devRef .tc main_v15) = Cert.Spec.invSqrt (F := Ideal) (Cert.Spec.degree (Cert.Spec.dstIdx (aE m c))) :=
  (W6_of_ne m ρ c main_v15 (by decide)).trans (at5_dis m ρ c)

theorem at7_xw : W7 m ρ c (Proc.devRef .tc main_v47) = Cert.Spec.dense (F := Ideal) (hid1 m c) (aW2 m c) :=
  (W7_arr m ρ c 2).trans ((Region2.final (V6 m ρ) c).trans (congrArg₂ (Cert.Spec.dense (F := Ideal)) (at6_h1 m ρ c) (at6_w2 m ρ c)))
theorem at7_b2 : W7 m ρ c (Proc.devRef .tc main_arg4) = (aB2 m c) := (W7_of_ne m ρ c main_arg4 (by decide)).trans (at6_b2 m ρ c)
theorem at7_src : W7 m ρ c (Proc.devRef .tc main_v5) = Cert.Spec.srcIdx (F := Ideal) (aE m c) := (W7_of_ne m ρ c main_v5 (by decide)).trans (at6_src m ρ c)
theorem at7_dst : W7 m ρ c (Proc.devRef .tc main_v6) = Cert.Spec.dstIdx (F := Ideal) (aE m c) := (W7_of_ne m ρ c main_v6 (by decide)).trans (at6_dst m ρ c)
theorem at7_dis : W7 m ρ c (Proc.devRef .tc main_v15) = Cert.Spec.invSqrt (F := Ideal) (Cert.Spec.degree (Cert.Spec.dstIdx (aE m c))) :=
  (W7_of_ne m ρ c main_v15 (by decide)).trans (at6_dis m ρ c)

/-! ## At the fourth region's entry, and after it -/

theorem at8_agg : W8 m ρ c (Proc.devRef .tc main_v75) = Cert.Spec.propagate (F := Ideal) (aE m c) (Cert.Spec.dense (hid1 m c) (aW2 m c)) :=
  (Stretches.mid3_agg (W7 m ρ c)).trans (by rw [at7_dis m ρ c, at7_src m ρ c, at7_dst m ρ c, at7_xw m ρ c]; rfl)
theorem at8_row : W8 m ρ c (Proc.devRef .tc main_v76) = shapeCast S1x128 (aB2 m c) shapeCasts_S128_S1x128 :=
  (Stretches.mid3_row (W7 m ρ c)).trans (by rw [at7_b2 m ρ c])

/-- The second layer's output, with its bias as the reshaped row. -/
abbrev hid2 : Cert.Spec.Arr Ideal Cert.ReferenceIdeal.S100000x128 .f32 :=
  Cert.Spec.biasOnlyRow (F := Ideal) (Cert.Spec.propagate (aE m c) (Cert.Spec.dense (hid1 m c) (aW2 m c))) (shapeCast S1x128 (aB2 m c) shapeCasts_S128_S1x128)

theorem at9_h : W9 m ρ c (Proc.devRef .tc main_v77) = hid2 m c :=
  (W9_arr m ρ c 2).trans ((Region3.final (V8 m ρ) c).trans (congrArg₂ (Cert.Spec.biasOnlyRow (F := Ideal)) (at8_agg m ρ c) (at8_row m ρ c)))

/-! ## The last region's entry, and the return -/

theorem at10_h : W10 m ρ c (Proc.devRef .tc main_v77) = hid2 m c := (Stretches.last_v77 (W9 m ρ c)).trans (at9_h m ρ c)

/-- The head's weights reach the last region as launched: read back from the return through the one region between. -/
theorem at10_wf : W10 m ρ c (Proc.devRef .tc main_arg5) = (aWf m c) :=
  ((W11_arr m ρ c 1).trans (((dat4 (V10 m ρ) c).arrAt_in 1 rfl _).trans (A_eq4 (V10 m ρ) c 1))).symm.trans (W11_main_arg5 m ρ c)

/-- So does the head's bias reach the last stretch. -/
theorem at9_bf : W9 m ρ c (Proc.devRef .tc main_arg6) = (aBf m c) :=
  ((W11_of_ne m ρ c main_arg6 (by decide)).trans (Stretches.last_arg6 (W9 m ρ c))).symm.trans (W11_main_arg6 m ρ c)

theorem at10_row : W10 m ρ c (Proc.devRef .tc main_v78) = shapeCast S1x10 (aBf m c) shapeCasts_S10_S1x10 :=
  (Stretches.last_row (W9 m ρ c)).trans (by rw [at9_bf m ρ c])

/-- The first result at the return: the last region reads it and writes nothing to it. -/
theorem at11_h : W11 m ρ c (Proc.devRef .tc main_v77) = hid2 m c :=
  ((W11_arr m ρ c 0).trans (((dat4 (V10 m ρ) c).arrAt_in 0 rfl _).trans (A_eq4 (V10 m ρ) c 0))).trans (at10_h m ρ c)

/-- The second result at the return: the head of the first, its bias as the reshaped row. -/
theorem at11_out : W11 m ρ c (Proc.devRef .tc main_v79)
    = Cert.Spec.headRow (F := Ideal) (hid2 m c) (aWf m c) (shapeCast S1x10 (aBf m c) shapeCasts_S10_S1x10) :=
  (W11_arr m ρ c 3).trans ((Region4.final (V10 m ρ) c).trans (by
    show Cert.Spec.headRow (F := Ideal) (W10 m ρ c (Proc.devRef .tc main_v77)) (W10 m ρ c (Proc.devRef .tc main_arg5)) (W10 m ρ c (Proc.devRef .tc main_v78)) = _
    rw [at10_h m ρ c, at10_wf m ρ c, at10_row m ρ c]))

/-! ## The bias rows read as broadcast vectors: the model's own form -/

theorem hid2_eq : hid2 m c = Cert.Spec.hidden (F := Ideal) (aX m c) (aW1 m c) (aB1 m c) (aW2 m c) (aB2 m c) (aE m c) := by
  unfold hid2 hid1
  rw [Cert.Spec.row_of_vector (n := 128) (aB1 m c) shapeCasts_S128_S1x128 Cert.ReferenceIdeal.Gen.bcast_S128_S1x128_1,
    Cert.Spec.row_of_vector (n := 128) (aB2 m c) shapeCasts_S128_S1x128 Cert.ReferenceIdeal.Gen.bcast_S128_S1x128_1]
  rfl

theorem out_eq : Cert.Spec.headRow (F := Ideal) (hid2 m c) (aWf m c) (shapeCast S1x10 (aBf m c) shapeCasts_S10_S1x10)
    = Cert.Spec.head (F := Ideal) (Cert.Spec.hidden (aX m c) (aW1 m c) (aB1 m c) (aW2 m c) (aB2 m c) (aE m c)) (aWf m c) (aBf m c) := by
  rw [Cert.Spec.row_of_vector (n := 10) (aBf m c) shapeCasts_S10_S1x10 Cert.ReferenceIdeal.Gen.bcast_S10_S1x10_1, hid2_eq m c]
  rfl

/-- The first result at the return is the model's two-layer output of the arguments. -/
theorem result_hidden : W11 m ρ c (Proc.devRef .tc main_v77) = Cert.Spec.hidden (F := Ideal) (aX m c) (aW1 m c) (aB1 m c) (aW2 m c) (aB2 m c) (aE m c) :=
  (at11_h m ρ c).trans (hid2_eq m c)

/-- The second result at the return is the model's head on the first. -/
theorem result_head : W11 m ρ c (Proc.devRef .tc main_v79)
    = Cert.Spec.head (F := Ideal) (Cert.Spec.hidden (aX m c) (aW1 m c) (aB1 m c) (aW2 m c) (aB2 m c) (aE m c)) (aWf m c) (aBf m c) :=
  (at11_out m ρ c).trans (out_eq m c)

end Cert.KernelIdeal.Chain

end
-- ==== Proof.RefValue.lean ====
/-
  What the reference program returns, as the model's function of its arguments.

  The reference's run ends with each result at the composition of its host operations over the arguments. Read
  from the outside in, that composition is: the second layer's bias added to the aggregation of the product of
  the rectified first layer with the second weights; and, for the second result, the head on the first. The
  reference rebuilds the edge bookkeeping (index lists, degrees, normalisation) once per layer, from the same
  edge array by the same operations, so both layers aggregate with the same function of the edge array. Unfolding
  the model's definitions gives the run's terms verbatim; no float law is used, so the equations hold for every
  float family.
-/
import proofs.«117090_j83013127897500_1_alg».proof.Proof.RefRun
import proofs.«117090_j83013127897500_1_alg».proof.Proof.Spec

set_option maxRecDepth 16384

noncomputable section

namespace Cert.RefValue

open Cert.ReferenceIdeal Cert.ReferenceIdeal.Gen Cert.ReferenceIdeal.ValueP Idealize.ShloMosaic Idealize.ShloMosaic.TcCoe Idealize.SL.Sem

variable {F : FTy → Type} [FloatOps F]
variable (m : (ℓ : Loc nD τ sig) → Buf (Elt F) ℓ)

/-- The first result is the two-layer network's output. -/
theorem hidden_eq (c : Dev nD) :
    res_main_v92 m c = Cert.Spec.hidden (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg7)) := by
  unfold res_main_v92 Cert.Spec.hidden Cert.Spec.layer Cert.Spec.addBias Cert.Spec.relu Cert.Spec.dense Cert.Spec.propagate Cert.Spec.aggregate
    Cert.Spec.edgeNorm Cert.Spec.wrap Cert.Spec.invSqrt Cert.Spec.degree Cert.Spec.srcIdx Cert.Spec.dstIdx
  rfl

/-- The second result is the dense head on the first. -/
theorem head_eq (c : Dev nD) :
    res_main_v96 m c = Cert.Spec.head (F := F) (res_main_v92 m c) (m ((c.tc : Thread nD τ).loc main_arg5)) (m ((c.tc : Thread nD τ).loc main_arg6)) := by
  unfold res_main_v96 res_main_v92 Cert.Spec.head
  rfl

end Cert.RefValue

end
-- ==== Proof.lean ====
/-
  A two-layer graph convolution with a dense head, computed by five tiled kernels with the edge aggregation on the
  host, against the same network written with host operations only.

  Over the extended reals both programs compute, from node features `x`, weights and biases, and an edge list with a
  self loop appended per node,

      h      = bias₂ + A · (relu(bias₁ + A · (x · W₁)) · W₂),        logits = h · Wf + bias_f,

  where `A` is the symmetrically normalised adjacency applied by a gather along the edges, a scaling by
  `deg^(-1/2)` at both ends and a scatter-add. The kernel program forms the three matrix products and the two bias
  steps in regions that walk the 100000 rows in ten blocks; a block product on the matrix unit is the same plain sum
  as the whole product's entries (narrowing to bf16 is the identity here), a bias row added to a block is the bias
  added to those rows, and the blocks tile each output, so every region leaves the whole-array operation the
  reference applies. The aggregation is the same chain of host operations in both programs and is never opened. The
  reference recomputes the degrees per layer and the kernel program once: the same function of the edge array. No
  law of arithmetic beyond reading products as sums is used, so the finiteness of the inputs is not needed.

  The three frames: the two kernel programs' by their region-by-region frame certificates, the reference's by its run.
  Nothing was rewritten by the idealization, so there is nothing to preserve.
-/
import proofs.«117090_j83013127897500_1_alg».proof.Defs
import proofs.«117090_j83013127897500_1_alg».proof.Proof.Gen.Kernel
import proofs.«117090_j83013127897500_1_alg».proof.Proof.Gen.Kernel.Frame
import proofs.«117090_j83013127897500_1_alg».proof.Proof.Gen.KernelIdeal
import proofs.«117090_j83013127897500_1_alg».proof.Proof.Gen.KernelIdeal.Frame
import proofs.«117090_j83013127897500_1_alg».proof.Proof.Gen.ReferenceIdeal
import proofs.«117090_j83013127897500_1_alg».proof.Proof.Gen.Pre_finite_inputs
import proofs.«117090_j83013127897500_1_alg».proof.Proof.KRun
import proofs.«117090_j83013127897500_1_alg».proof.Proof.KValue
import proofs.«117090_j83013127897500_1_alg».proof.Proof.RefRun
import proofs.«117090_j83013127897500_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with the network's two outputs of the arguments they were launched on; the arguments agree. -/
theorem algebraic : Cert.algebraic_KernelIdeal_ReferenceIdeal := by
  intro m ρ m' ρ' _ hagree
  refine ⟨_, _, (θ_run Cert.KernelIdeal.defs _ _).mono (fun r h c =>
      ⟨(h c).1.trans (Cert.KernelIdeal.Chain.result_hidden m ρ c), (h c).2.1.trans (Cert.KernelIdeal.Chain.result_head m ρ c), (h c).2.2⟩)
    (Cert.KernelIdeal.Whole.run_W m ρ), ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨a0, a1, a2, a3, a4, a5, a6, a7⟩ := hagree c
    rw [Cert.RefValue.hidden_eq m' c, a0, a1, a2, a3, a4, a7]
  · obtain ⟨a0, a1, a2, a3, a4, a5, a6, a7⟩ := hagree c
    rw [Cert.RefValue.head_eq m' c, Cert.RefValue.hidden_eq m' c, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
